-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Payloads.lean ====
/-
  The two kernel bodies' payloads read at an index, at the exact instance.
  The projection body: a narrowing of the float format is the identity on extended reals, and the matrix product into the
  zero accumulator is the plain sum over the contracted axis, so entry (p, q) of a block's result is
  `∑ k, x (p, k) * w (k, q)`. The bias body: entry (p, q) is `a (p, q) + b (0, q)`, the row of biases read on
  its unit axis.
-/
import proofs.«158254_j21818433863981_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The contraction's operand indices, axis by axis -/

theorem lhs_axis0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_axis1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_axis0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_axis1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row `i 0` of the left block at column `k`. -/
abbrev rowAt (i : S5000x128.Idx) (k : Fin 256) : S5000x256.Idx := fun a => match a with
  | ⟨0, _⟩ => ⟨(i 0).val, (i 0).isLt⟩
  | ⟨1, _⟩ => ⟨k.val, k.isLt⟩
/-- Column `i 1` of the weights at row `k`. -/
abbrev colAt (i : S5000x128.Idx) (k : Fin 256) : S256x128.Idx := fun a => match a with
  | ⟨0, _⟩ => ⟨k.val, k.isLt⟩
  | ⟨1, _⟩ => ⟨(i 1).val, (i 1).isLt⟩

/-- The projection body's payload at an index: the row of the left block against the column of the weights. -/
theorem proj_apply (x0 : Vec Ideal S5000x256 .f32) (x1 : Vec Ideal S256x128 .f32) (i : S5000x128.Idx) :
    k0_pay1 (F := Ideal) x0 x1 i = ∑ k : Fin 256, x0 (rowAt i k) * x1 (colAt i k) := by
  unfold k0_pay1
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx i ((contrEquiv1 dot_S5000x256_S256x128_S5000x128_1_0_0_1_n_n 256 rfl rfl).symm k) = rowAt i k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx i ((contrEquiv1 dot_S5000x256_S256x128_S5000x128_1_0_0_1_n_n 256 rfl rfl).symm k) = colAt i k := funext fun a => Fin.ext (by
    match a with
    | ⟨0, _⟩ => exact (rhs_axis0 _ _).trans hk
    | ⟨1, _⟩ => exact rhs_axis1 _ _)
  rw [el, er]
  rfl

/-- The bias row's entry under column `i 1`. -/
abbrev biasAt (i : S5000x128.Idx) : S1x128.Idx := fun a => match a with
  | ⟨0, _⟩ => ⟨0, Nat.one_pos⟩
  | ⟨1, _⟩ => ⟨(i 1).val, (i 1).isLt⟩

/-- The bias body's payload at an index: the aggregate's entry plus the bias of its column. -/
theorem bias_apply (a : Vec Ideal S5000x128 .f32) (b : Vec Ideal S1x128 .f32) (i : S5000x128.Idx) :
    k1_pay1 (F := Ideal) a b i = a i + b (biasAt i) := by
  unfold k1_pay1
  rw [addf_apply, shapeCast_self, shapeCast_self, shapeCast_self]
  refine congrArg (a i + ·) ?_
  exact broadcastTo_apply b broadcasts_S1x128_S5000x128 i (biasAt i) (fun d => match d with
    | ⟨0, _⟩ => by show 0 = if (1 : Nat) = 1 then 0 else (i 0).val; rw [if_pos rfl]
    | ⟨1, _⟩ => by show (i 1).val = if (128 : Nat) = 1 then 0 else (i 1).val; rw [if_neg (by decide)])

end Cert.KernelIdeal.Payload

end
-- ==== Proof.Spec.lean ====
/-
  What the program computes, as functions of the argument arrays.
  `proj x w` is the dense projection, entry (r, q) = `∑ k, x (r, k) * w (k, q)`.
  `agg h rows cols vals` is the sparse aggregation over the edges: negative column ids are shifted up by the number of
  nodes, row `cols e` of `h` is gathered for every edge `e` and scaled by `vals e`, and the scaled rows are added into a
  zero array at the rows `rows e` name. It is spelled with the host's own operations, so that both programs' middle
  stretch IS this term and nothing about which rows an edge reads or writes ever has to be opened.
  `result` adds the bias of each column to the aggregate of the projection.
-/
import proofs.«158254_j21818433863981_1_alg».proof.Proof.Gen.KernelIdeal
import Idealize.ShloMosaic.PureOps.Ideal

noncomputable section

namespace Cert.KernelIdeal.Spec

open Cert.KernelIdeal Cert.KernelIdeal.Facts₀ Idealize.ShloMosaic

/-- Row `i 0` of the features at column `k`. -/
abbrev xAt (i : S100000x128.Idx) (k : Fin 256) : S100000x256.Idx := fun a => match a with
  | ⟨0, _⟩ => ⟨(i 0).val, (i 0).isLt⟩
  | ⟨1, _⟩ => ⟨k.val, k.isLt⟩
/-- Column `i 1` of the weights at row `k`. -/
abbrev wAt (i : S100000x128.Idx) (k : Fin 256) : S256x128.Idx := fun a => match a with
  | ⟨0, _⟩ => ⟨k.val, k.isLt⟩
  | ⟨1, _⟩ => ⟨(i 1).val, (i 1).isLt⟩
/-- The bias under column `i 1`. -/
abbrev bAt (i : S100000x128.Idx) : S128.Idx := fun a => match a with
  | ⟨0, _⟩ => ⟨(i 1).val, (i 1).isLt⟩

/-- The dense projection `x · w` over the extended reals. -/
def proj (x : (⟨S100000x256, .f32⟩ : BufTy).Contents (Elt Ideal)) (w : (⟨S256x128, .f32⟩ : BufTy).Contents (Elt Ideal)) :
    (⟨S100000x128, .f32⟩ : BufTy).Contents (Elt Ideal) :=
  fun i => ∑ k : Fin 256, x (xAt i k) * w (wAt i k)

section Agg
variable {F : FTy → Type} [FloatOps F]

/-- The sparse aggregation of the rows of `h` over the edges `(rows e, cols e, vals e)`. -/
def agg (h : (⟨S100000x128, .f32⟩ : BufTy).Contents (Elt F)) (rows cols : (⟨S1600000, .i32⟩ : BufTy).Contents (Elt F))
    (vals : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select
            (cmpi .slt cols (broadcastInDim S1600000 ![] bcast_S_S1600000 (constantI S_ 32 0#32)))
            (addi cols (broadcastInDim S1600000 ![] bcast_S_S1600000 (constantI S_ 32 100000#32)))
            cols))))

end Agg

/-- The whole computation: the aggregate of the projection, plus each column's bias. -/
def result (x : (⟨S100000x256, .f32⟩ : BufTy).Contents (Elt Ideal)) (rows cols : (⟨S1600000, .i32⟩ : BufTy).Contents (Elt Ideal))
    (vals : (⟨S1600000, .f32⟩ : BufTy).Contents (Elt Ideal)) (w : (⟨S256x128, .f32⟩ : BufTy).Contents (Elt Ideal))
    (b : (⟨S128, .f32⟩ : BufTy).Contents (Elt Ideal)) : (⟨S100000x128, .f32⟩ : BufTy).Contents (Elt Ideal) :=
  fun i => agg (F := Ideal) (proj x w) rows cols vals i + b (bAt i)

end Cert.KernelIdeal.Spec

end
-- ==== Proof.Projection.lean ====
/-
  The first region's result array. Grid point `t` stages rows `5000 t … 5000 t + 4999` of the features and the whole
  weight matrix, and writes back the block's product, which is rows `5000 t …` of the projection `x · w`: an entry of a
  block of the product only reads its own row of the features. The twenty blocks tile the 100000 rows, so after the
  region the array is the projection of the arrays the region found.
-/
import proofs.«158254_j21818433863981_1_alg».proof.Proof.Gen.KernelIdeal.Frame
import proofs.«158254_j21818433863981_1_alg».proof.Proof.Payloads
import proofs.«158254_j21818433863981_1_alg».proof.Proof.Spec
import Idealize.ShloMosaic.Lib.Pipeline.Value

set_option maxRecDepth 16384

noncomputable section

namespace Cert.KernelIdeal.Projection

open Cert.KernelIdeal Cert.KernelIdeal.Gen Cert.KernelIdeal.Payload Cert.KernelIdeal.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The features as the region finds them, at their literal type. -/
abbrev xarr (c : Dev nD) : (⟨S100000x256, .f32⟩ : BufTy).Contents (Elt Ideal) := V c main_arg0
/-- The weights as the region finds them, at their literal type. -/
abbrev warr (c : Dev nD) : (⟨S256x128, .f32⟩ : BufTy).Contents (Elt Ideal) := V c main_arg4

/-- The printed index maps over the grid: the features' and the result's block index is the point on the row axis and
    zero on the column axis, the weights' block index is zero. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the arrays the region found. -/
theorem flushed_proj (c : Dev nD) (t : Fin cfg0.N) :
    (dat0 V c).flushed 2 t = ((cfg0.win 2).blk t).view.read (Elt Ideal) (proj (V c main_arg0) (V c main_arg4)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x128) offsets_zero]
  obtain ⟨e0, e1, e2, e3, e4, e5⟩ := block_index t
  funext j
  show k0_pay1 (F := Ideal) (iblk0 V c 0 t) (iblk0 V c 1 t) j = proj (V c main_arg0) (V c main_arg4) (((cfg0.win 2).blk t).view.emb j)
  refine (proj_apply (iblk0 V c 0 t) (iblk0 V c 1 t) j).trans ?_
  unfold proj
  refine Finset.sum_congr rfl fun k _ => ?_
  show xarr V c (((cfg0.win 0).blk t).view.emb (rowAt j k)) * warr V c (((cfg0.win 1).blk t).view.emb (colAt j k))
    = xarr V c (xAt (((cfg0.win 2).blk t).view.emb j) k) * warr V c (wAt (((cfg0.win 2).blk t).view.emb j) k)
  have hx : ((cfg0.win 0).blk t).view.emb (rowAt j k) = xAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hw : ((cfg0.win 1).blk t).view.emb (colAt j k) = wAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hx, hw]

/-- An index of the array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` lies in the block of point `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := block_index t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array is the projection of the arrays it found. -/
theorem final_proj (c : Dev nD) : (dat0 V c).arrAt 2 cfg0.N = proj (V c main_arg0) (V c main_arg4) :=
  (dat0 V c).arrAt_eq_of_cover 2 (proj (V c main_arg0) (V c main_arg4)) (fun t _ => flushed_proj V c t) covered

end Cert.KernelIdeal.Projection

end
-- ==== Proof.BiasRegion.lean ====
/-
  The second region's result array. Grid point `t` stages rows `5000 t … 5000 t + 4999` of the aggregate and the one
  row of biases, and writes back the block with each column's bias added: rows `5000 t …` of `a + bias`. The twenty
  blocks tile the 100000 rows, so after the region the array is the aggregate it found plus the bias row, column by column.
-/
import proofs.«158254_j21818433863981_1_alg».proof.Proof.Gen.KernelIdeal.Frame
import proofs.«158254_j21818433863981_1_alg».proof.Proof.Payloads
import Idealize.ShloMosaic.Lib.Pipeline.Value

set_option maxRecDepth 16384

noncomputable section

namespace Cert.KernelIdeal.BiasRegion

open Cert.KernelIdeal Cert.KernelIdeal.Gen Cert.KernelIdeal.Payload
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The aggregate as the region finds it, at its literal type. -/
abbrev aarr (c : Dev nD) : (⟨S100000x128, .f32⟩ : BufTy).Contents (Elt Ideal) := V c main_v13
/-- The bias row as the region finds it, at its literal type. -/
abbrev barr (c : Dev nD) : (⟨S1x128, .f32⟩ : BufTy).Contents (Elt Ideal) := V c main_v14

/-- The entry of the bias row under column `i 1`. -/
abbrev rowBias (i : S100000x128.Idx) : S1x128.Idx := fun a => match a with
  | ⟨0, _⟩ => ⟨0, Nat.one_pos⟩
  | ⟨1, _⟩ => ⟨(i 1).val, (i 1).isLt⟩

/-- An array plus a row of biases, column by column. -/
def plusBias (a : (⟨S100000x128, .f32⟩ : BufTy).Contents (Elt Ideal)) (b : (⟨S1x128, .f32⟩ : BufTy).Contents (Elt Ideal)) :
    (⟨S100000x128, .f32⟩ : BufTy).Contents (Elt Ideal) :=
  fun i => a i + b (rowBias i)

/-- The printed index maps over the grid: the aggregate's and the result's block index is the point on the row axis and
    zero on the column axis, the bias row's block index is zero. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the aggregate plus the bias row, of the arrays the region found. -/
theorem flushed_bias (c : Dev nD) (t : Fin cfg1.N) :
    (dat1 V c).flushed 2 t = ((cfg1.win 2).blk t).view.read (Elt Ideal) (plusBias (V c main_v13) (V c main_v14)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S1x128) offsets_zero]
  obtain ⟨e0, e1, e2, e3, e4, e5⟩ := block_index t
  funext j
  show k1_pay1 (F := Ideal) (iblk1 V c 0 t) (iblk1 V c 1 t) j = plusBias (V c main_v13) (V c main_v14) (((cfg1.win 2).blk t).view.emb j)
  refine (bias_apply (iblk1 V c 0 t) (iblk1 V c 1 t) j).trans ?_
  unfold plusBias
  show aarr V c (((cfg1.win 0).blk t).view.emb j) + barr V c (((cfg1.win 1).blk t).view.emb (biasAt j))
    = aarr V c (((cfg1.win 2).blk t).view.emb j) + barr V c (rowBias (((cfg1.win 2).blk t).view.emb j))
  have ha : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hb : ((cfg1.win 1).blk t).view.emb (biasAt j) = rowBias (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [ha, hb]

/-- An index of the array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Row `r` lies in the block of point `r / 5000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := block_index t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array is the aggregate it found plus the bias row. -/
theorem final_bias (c : Dev nD) : (dat1 V c).arrAt 2 cfg1.N = plusBias (V c main_v13) (V c main_v14) :=
  (dat1 V c).arrAt_eq_of_cover 2 (plusBias (V c main_v13) (V c main_v14)) (fun t _ => flushed_bias V c t) covered

end Cert.KernelIdeal.BiasRegion

end
-- ==== Proof.Between.lean ====
/-
  The host operations between the two regions, read as values. The second region finds, in its first operand's array,
  the sparse aggregation (`Spec.agg`) of whatever the first region left in its result array over the edge arrays as
  launched, and in its second operand's array the bias vector laid out as one row. No host operation and no window of
  the first region writes an edge array or the bias, so those are still the launch contents.
-/
import proofs.«158254_j21818433863981_1_alg».proof.Proof.Gen.KernelIdeal.Frame
import proofs.«158254_j21818433863981_1_alg».proof.Proof.Spec
import Idealize.ShloMosaic.Lib.StableHlo.Run

set_option maxRecDepth 16384

noncomputable section

namespace Cert.KernelIdeal.Between

open Cert.KernelIdeal Cert.KernelIdeal.Gen Cert.KernelIdeal.Spec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first region leaves the row ids as launched … -/
theorem rows_kept (c : Dev nD) : W1 m ρ c (Proc.devRef .tc main_arg1) = m ((c : Thread nD τ).loc main_arg1) :=
  W1_of_ne m ρ c main_arg1 (by decide)
/-- … the column ids … -/
theorem cols_kept (c : Dev nD) : W1 m ρ c (Proc.devRef .tc main_arg2) = m ((c : Thread nD τ).loc main_arg2) :=
  W1_of_ne m ρ c main_arg2 (by decide)
/-- … the edge values … -/
theorem vals_kept (c : Dev nD) : W1 m ρ c (Proc.devRef .tc main_arg3) = m ((c : Thread nD τ).loc main_arg3) :=
  W1_of_ne m ρ c main_arg3 (by decide)
/-- … and the bias. -/
theorem bias_kept (c : Dev nD) : W1 m ρ c (Proc.devRef .tc main_arg5) = m ((c : Thread nD τ).loc main_arg5) :=
  W1_of_ne m ρ c main_arg5 (by decide)

/-- The second region's first operand: the aggregation of the first region's result over the launched edge arrays. -/
theorem entry_agg (c : Dev nD) :
    V2 m ρ c main_v13 = agg (V1 m ρ c main_v0) (m ((c : Thread nD τ).loc main_arg1)) (m ((c : Thread nD τ).loc main_arg2)) (m ((c : Thread nD τ).loc main_arg3)) := by
  show StableHlo.after hostOps1 (W1 m ρ c) (Proc.devRef .tc main_v13) = _
  after_results
  rw [rows_kept, cols_kept, vals_kept]
  rfl

/-- The second region's second operand: the launched bias vector as one row. -/
theorem entry_bias (c : Dev nD) :
    V2 m ρ c main_v14 = shapeCast S1x128 (m ((c : Thread nD τ).loc main_arg5)) Gen.shapeCasts_S128_S1x128 := by
  show StableHlo.after hostOps1 (W1 m ρ c) (Proc.devRef .tc main_v14) = _
  after_results
  rw [bias_kept]
  rfl

end Cert.KernelIdeal.Between

end
-- ==== Proof.KernelValue.lean ====
/-
  The kernel program's result as a function of its arguments. After the last region the result array is the aggregate
  the region found plus the bias row; the aggregate is the sparse aggregation of what the first region left, which is
  the projection of the launched features and weights; and the bias row is the launched bias vector laid out as one
  row, so its entry under column q is the bias of q. Together: `Spec.result` of the launch arrays.
-/
import proofs.«158254_j21818433863981_1_alg».proof.Proof.Projection
import proofs.«158254_j21818433863981_1_alg».proof.Proof.BiasRegion
import proofs.«158254_j21818433863981_1_alg».proof.Proof.Between
import proofs.«158254_j21818433863981_1_alg».proof.Proof.KernelRun

set_option maxRecDepth 16384

noncomputable section

namespace Cert.KernelIdeal.KernelValue

open Cert.KernelIdeal Cert.KernelIdeal.Gen Cert.KernelIdeal.Spec
open Cert.KernelIdeal.Projection (final_proj)
open Cert.KernelIdeal.BiasRegion (final_bias plusBias rowBias)
open Cert.KernelIdeal.Between (entry_agg entry_bias)
open Idealize.ShloMosaic Idealize.ShloMosaic.TcCoe Idealize.SL.Sem

variable (m : (ℓ : Loc nD τ sig) → Buf (Elt Ideal) ℓ) (ρ : Dev nD → PrngReg)

/-- The bias vector laid out as one row, read under column `i 1`, is the bias of that column. -/
theorem bias_row (b : (⟨S128, .f32⟩ : BufTy).Contents (Elt Ideal)) (i : S100000x128.Idx) :
    shapeCast S1x128 b Gen.shapeCasts_S128_S1x128 (rowBias i) = b (bAt i) :=
  shapeCast_apply b Gen.shapeCasts_S128_S1x128 (rowBias i) (bAt i) (by
    rw [Shape.rowMajor_val_one, Shape.rowMajor_val_two]
    show (i 1).val = 0 * 128 + (i 1).val
    omega)

/-- What the first region leaves in its result array: the projection of the launched features and weights. -/
theorem left_by_first (c : Dev nD) :
    V1 m ρ c main_v0 = proj (m ((c : Thread nD τ).loc main_arg0)) (m ((c : Thread nD τ).loc main_arg4)) :=
  (W1_arr m ρ c 2).trans (final_proj (V0 m ρ) c)

/-- The result array after the run is `result` of the launch arrays. -/
theorem last_contents (c : Dev nD) :
    W3 m ρ c (Proc.devRef .tc main_v15) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (W3_arr m ρ c 2).trans ((final_bias (V2 m ρ) c).trans ?_)
  rw [entry_agg, entry_bias, left_by_first]
  funext i
  unfold plusBias result
  rw [bias_row]

/-- The run, read: the result array at `result` of the launch arrays, the arguments unchanged. -/
theorem run : θ_run defs (onTc (τ := τ) (main (F := Ideal))) ⟨m, fun _ => 0, ρ⟩ (fun r => ∀ c : Dev nD,
      r.2.mem ((c.tc : Thread nD τ).loc main_v15) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (last_contents m ρ c), (h c).2⟩)
    (Cert.KernelIdeal.RunNamed.run_named (F := Ideal) m ρ)

end Cert.KernelIdeal.KernelValue

end
-- ==== Proof.RefSide.lean ====
/-
  The reference computes the same function. Its dense product, read at an index, is the sum over the contracted axis:
  the projection. Its middle stretch is, operation for operation, the sparse aggregation of that product. Its last
  step adds the bias broadcast first to one row and then down the rows, which at entry (r, q) is the bias of column q.
-/
import proofs.«158254_j21818433863981_1_alg».proof.Proof.Gen.ReferenceIdeal.Read
import proofs.«158254_j21818433863981_1_alg».proof.Proof.Spec

noncomputable section

namespace Cert.ReferenceIdeal.RefValue

open Cert.ReferenceIdeal Cert.ReferenceIdeal.Read Idealize.ShloMosaic
open Cert.KernelIdeal.Spec (proj agg result xAt wAt bAt)

/-- The reference's dense product is the projection. -/
theorem dot_is_proj (x : (⟨S100000x256, .f32⟩ : BufTy).Contents (Elt Ideal)) (w : (⟨S256x128, .f32⟩ : BufTy).Contents (Elt Ideal)) :
    val_main_v0 (F := Ideal) x w = proj x w := by
  funext i
  rw [val_main_v0_apply]
  unfold proj
  refine Finset.sum_congr rfl fun k _ => ?_
  have hl : lidx_main_v0 i k = xAt i k := funext fun a => match a with | ⟨0, _⟩ => rfl | ⟨1, _⟩ => rfl
  have hr : ridx_main_v0 i k = wAt i k := funext fun a => match a with | ⟨0, _⟩ => rfl | ⟨1, _⟩ => rfl
  rw [hl, hr]

/-- The reference's scatter of the scaled gathered rows is the aggregation of the projection. -/
theorem scatter_is_agg (x : (⟨S100000x256, .f32⟩ : BufTy).Contents (Elt Ideal)) (rows cols : (⟨S1600000, .i32⟩ : BufTy).Contents (Elt Ideal))
    (vals : (⟨S1600000, .f32⟩ : BufTy).Contents (Elt Ideal)) (w : (⟨S256x128, .f32⟩ : BufTy).Contents (Elt Ideal)) :
    val_main_v13 (F := Ideal) x rows cols vals w = agg (F := Ideal) (proj x w) rows cols vals := by
  unfold val_main_v13 val_main_v10 val_main_v8
  rw [dot_is_proj]
  rfl

/-- The reference's result is `result` of its arguments. -/
theorem ref_is_result (x : (⟨S100000x256, .f32⟩ : BufTy).Contents (Elt Ideal)) (rows cols : (⟨S1600000, .i32⟩ : BufTy).Contents (Elt Ideal))
    (vals : (⟨S1600000, .f32⟩ : BufTy).Contents (Elt Ideal)) (w : (⟨S256x128, .f32⟩ : BufTy).Contents (Elt Ideal))
    (b : (⟨S128, .f32⟩ : BufTy).Contents (Elt Ideal)) :
    val_main_v16 (F := Ideal) x rows cols vals w b = result x rows cols vals w b := by
  funext i
  rw [val_main_v16_apply, val_main_v15_apply, val_main_v14_apply, scatter_is_agg]
  unfold result
  have hb : idx_main_v14 (idx_main_v15 i) = bAt i := funext fun a => match a with | ⟨0, _⟩ => rfl
  rw [hb]
  rfl

end Cert.ReferenceIdeal.RefValue

end
-- ==== Proof.lean ====
/-
  The certificate: a graph-convolution layer `out = segment_sum (vals · (x · w)[cols], rows) + bias`, computed by two
  tiled TensorCore regions (the dense projection `x · w`, twenty row blocks of 5000; the final bias add, the same
  blocks) around the host's gather and scatter-add, against the plain jnp reference.
  Over the extended reals both programs compute `Spec.result` of their arguments. The kernel's narrowing of the
  matrix operands to a shorter float format is the identity there and its block products are rows of the one dense
  product, which is also what the reference's contraction is; the gather, the scaling and the scatter-add in the middle
  are the same host operations in both programs, applied to that one product; and adding a row of biases block by block
  is adding the bias of each column. No step moves a factor across a sum, so no argument's finiteness is used.
  The two kernel frames are the generated ones, the reference's frame is its generated run with the result dropped,
  and the idealization rewrote nothing.
-/
import proofs.«158254_j21818433863981_1_alg».proof.Defs
import proofs.«158254_j21818433863981_1_alg».proof.Proof.Gen.Kernel
import proofs.«158254_j21818433863981_1_alg».proof.Proof.Gen.Kernel.Skeleton
import proofs.«158254_j21818433863981_1_alg».proof.Proof.Gen.Kernel.Launch
import proofs.«158254_j21818433863981_1_alg».proof.Proof.Gen.Kernel.Points
import proofs.«158254_j21818433863981_1_alg».proof.Proof.Gen.Kernel.Frame
import proofs.«158254_j21818433863981_1_alg».proof.Proof.Gen.KernelIdeal
import proofs.«158254_j21818433863981_1_alg».proof.Proof.Gen.KernelIdeal.Skeleton
import proofs.«158254_j21818433863981_1_alg».proof.Proof.Gen.KernelIdeal.Launch
import proofs.«158254_j21818433863981_1_alg».proof.Proof.Gen.KernelIdeal.Points
import proofs.«158254_j21818433863981_1_alg».proof.Proof.Gen.KernelIdeal.Frame
import proofs.«158254_j21818433863981_1_alg».proof.Proof.Gen.ReferenceIdeal
import proofs.«158254_j21818433863981_1_alg».proof.Proof.Gen.Pre_finite_inputs
import proofs.«158254_j21818433863981_1_alg».proof.Proof.Gen.ReferenceIdeal.Run
import proofs.«158254_j21818433863981_1_alg».proof.Proof.Gen.ReferenceIdeal.Read
import proofs.«158254_j21818433863981_1_alg».proof.Proof.KernelValue
import proofs.«158254_j21818433863981_1_alg».proof.Proof.RefSide
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result array at `Spec.result` of the
    kernel's arguments. -/
theorem algebraic : Cert.algebraic_KernelIdeal_ReferenceIdeal := by
  intro m ρ m' ρ' _ hagree
  refine ⟨fun c => Cert.KernelIdeal.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v16_eq, Cert.ReferenceIdeal.RefValue.ref_is_result, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
